-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1024 : Shape := ⟨3, ![4, 3, 1024]⟩
abbrev S4x3x32768 : Shape := ⟨3, ![4, 3, 32768]⟩
abbrev S_ : Shape := ⟨0, ![]⟩

class Facts : Prop where
  bcast_S_S4x3x1024 : S_.BroadcastsInDim S4x3x1024 (![] : Fin 0 → Fin S4x3x1024.rank)
  reducesTo_S4x3x1024_S_d0_1_2 : S4x3x1024.ReducesTo [0, 1, 2] S_
  h_S_ : 0 < S_.numel
  bcast_S_S4x3x32768 : S_.BroadcastsInDim S4x3x32768 (![] : Fin 0 → Fin S4x3x32768.rank)
  reducesTo_S4x3x32768_S_d0_1_2 : S4x3x32768.ReducesTo [0, 1, 2] S_

variable [Facts]

def fn {F : FTy → Type} [FloatOps F] (main_arg0 : FVec F S4x3x1024 .f32) (main_arg1 : FVec F S4x3x32768 .f32) : IVec S_ 1 :=
  let main_v0 : FVec F S4x3x1024 .f32 := Host.absf main_arg0
  let main_cst : FVec F S_ .f32 := constant S_ .f32 0x7F800000#32
  let main_v1 : FVec F S4x3x1024 .f32 := broadcastInDim S4x3x1024 ![] bcast_S_S4x3x1024 main_cst
  let main_v2 : IVec S4x3x1024 1 := cmpf .olt main_v0 main_v1
  let main_c : IVec S_ 1 := constantI S_ 1 1#1
  let main_v3 : IVec S_ 1 := (fun x v => Host.reduce IntOp.andi x v reducesTo_S4x3x1024_S_d0_1_2 h_S_) main_v2 main_c
  let main_v4 : FVec F S4x3x32768 .f32 := Host.absf main_arg1
  let main_cst_0 : FVec F S_ .f32 := constant S_ .f32 0x7F800000#32
  let main_v5 : FVec F S4x3x32768 .f32 := broadcastInDim S4x3x32768 ![] bcast_S_S4x3x32768 main_cst_0
  let main_v6 : IVec S4x3x32768 1 := cmpf .olt main_v4 main_v5
  let main_c_1 : IVec S_ 1 := constantI S_ 1 1#1
  let main_v7 : IVec S_ 1 := (fun x v => Host.reduce IntOp.andi x v reducesTo_S4x3x32768_S_d0_1_2 h_S_) main_v6 main_c_1
  let main_v8 : IVec S_ 1 := andi main_v3 main_v7
  main_v8
-- ==== Kernel.lean ====
abbrev S4x3x1024 : Shape := ⟨3, ![4, 3, 1024]⟩
abbrev S4x3x32768 : Shape := ⟨3, ![4, 3, 32768]⟩
abbrev S4x1024 : Shape := ⟨2, ![4, 1024]⟩
abbrev S4x3x256 : Shape := ⟨3, ![4, 3, 256]⟩
abbrev S4x3x2048 : Shape := ⟨3, ![4, 3, 2048]⟩
abbrev S4x256 : Shape := ⟨2, ![4, 256]⟩
abbrev S4x2048 : Shape := ⟨2, ![4, 2048]⟩
abbrev S4x256x2048 : Shape := ⟨3, ![4, 256, 2048]⟩
abbrev S4x256x1 : Shape := ⟨3, ![4, 256, 1]⟩
abbrev S4x1x2048 : Shape := ⟨3, ![4, 1, 2048]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4x3x1024, .f32⟩
  | .hbm, ⟨1, _⟩ => ⟨S4x3x32768, .f32⟩
  | .hbm, ⟨2, _⟩ => ⟨S4x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S4x3x256, .f32⟩
  | .local _ .vmem, ⟨1, _⟩ => ⟨S4x3x256, .f32⟩
  | .local _ .vmem, ⟨2, _⟩ => ⟨S4x3x2048, .f32⟩
  | .local _ .vmem, ⟨3, _⟩ => ⟨S4x3x2048, .f32⟩
  | .local _ .vmem, ⟨4, _⟩ => ⟨S4x256, .f32⟩
  | .local _ .vmem, ⟨5, _⟩ => ⟨S4x256, .f32⟩
  | _, _ => ⟨S4x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4x3x256_S4x3x256_0_0_0 : ∀ a, (![0, 0, 0] : Fin 3 → Nat) a + S4x3x256.size a ≤ S4x3x256.size a
  h_S4x3x256 : 0 < S4x3x256.numel
  inb_S4x3x2048_S4x3x2048_0_0_0 : ∀ a, (![0, 0, 0] : Fin 3 → Nat) a + S4x3x2048.size a ≤ S4x3x2048.size a
  h_S4x3x2048 : 0 < S4x3x2048.numel
  reduces_S4x3x256_S4x256 : S4x3x256.Reduces [1] S4x256
  reduces_S4x3x2048_S4x2048 : S4x3x2048.Reduces [1] S4x2048
  bitsLt_bf16_f32 : FTy.bits .bf16 < FTy.bits .f32
  shapeCasts_S4x256_S4x256x1 : S4x256.ShapeCasts S4x256x1
  shapeCasts_S4x2048_S4x1x2048 : S4x2048.ShapeCasts S4x1x2048
  broadcasts_S4x256x1_S4x256x2048 : S4x256x1.Broadcasts S4x256x2048
  broadcasts_S4x1x2048_S4x256x2048 : S4x1x2048.Broadcasts S4x256x2048
  reduces_S4x256x2048_S4x256 : S4x256x2048.Reduces [2] S4x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  reducesTo_S4x1024_S_d0_1 : S4x1024.ReducesTo [0, 1] S_
  h_S_ : 0 < S_.numel
  dot_S4x3x256_S4x3x2048_S4x256x2048_1_1_2_2_0_0_wf : DotDims.WF S4x3x256 S4x3x2048 S4x256x2048 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256.size a ≤ S4x3x1024.size a
  hwx0_0 : ∀ i : grid0.Coords, EltTy.bits .f32 = 32 ∨ (Rect.block (s := S4x3x1024) S4x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x2048.size a ≤ S4x3x32768.size a
  hwx0_1 : ∀ i : grid0.Coords, EltTy.bits .f32 = 32 ∨ (Rect.block (s := S4x3x32768) S4x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x1024.size a
  hwx0_2 : ∀ i : grid0.Coords, EltTy.bits .f32 = 32 ∨ (Rect.block (s := S4x1024) S4x256.size (cc0_transform_2 i) (hinb0_2 i)).WholeWords (EltTy.packing .f32)

variable [Facts₀]

def dot_S4x3x256_S4x3x2048_S4x256x2048_1_1_2_2_0_0 : DotDims S4x3x256 S4x3x2048 S4x256x2048 where
  lhsContracting := [1]
  rhsContracting := [1]
  lhsNonContracting := [2]
  rhsNonContracting := [2]
  lhsBatch := [0]
  rhsBatch := [0]
  wf := dot_S4x3x256_S4x3x2048_S4x256x2048_1_1_2_2_0_0_wf

abbrev win0_0 : Pipeline.Window sig grid0 :=
  Pipeline.Window.ofSpec (Memref.whole main_arg0) S4x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x1024 : Shape := ⟨3, ![4, 3, 1024]⟩
abbrev S4x3x32768 : Shape := ⟨3, ![4, 3, 32768]⟩
abbrev S_ : Shape := ⟨0, ![]⟩
abbrev S4x1024 : Shape := ⟨2, ![4, 1024]⟩
abbrev S4x32768 : Shape := ⟨2, ![4, 32768]⟩
abbrev S4x1024x32768 : Shape := ⟨3, ![4, 1024, 32768]⟩
abbrev S4x1024x1 : Shape := ⟨3, ![4, 1024, 1]⟩
abbrev S4x1x32768 : Shape := ⟨3, ![4, 1, 32768]⟩

abbrev nBuf : Space → Nat
  | .hbm => 28
  | .vmem => 0
  | .smem => 0
  | _ => 0

abbrev bufTy : (tb : Table) → Fin (tcTables nBuf tb) → BufTy
  | .hbm, ⟨0, _⟩ => ⟨S4x3x1024, .f32⟩
  | .hbm, ⟨1, _⟩ => ⟨S4x3x32768, .f32⟩
  | .hbm, ⟨2, _⟩ => ⟨S4x3x1024, .f32⟩
  | .hbm, ⟨3, _⟩ => ⟨S_, .f32⟩
  | .hbm, ⟨4, _⟩ => ⟨S4x1024, .f32⟩
  | .hbm, ⟨5, _⟩ => ⟨S4x3x32768, .f32⟩
  | .hbm, ⟨6, _⟩ => ⟨S_, .f32⟩
  | .hbm, ⟨7, _⟩ => ⟨S4x32768, .f32⟩
  | .hbm, ⟨8, _⟩ => ⟨S4x1024x32768, .f32⟩
  | .hbm, ⟨9, _⟩ => ⟨S4x1024x1, .f32⟩
  | .hbm, ⟨10, _⟩ => ⟨S4x1x32768, .f32⟩
  | .hbm, ⟨11, _⟩ => ⟨S4x1024x32768, .f32⟩
  | .hbm, ⟨12, _⟩ => ⟨S4x1024x32768, .f32⟩
  | .hbm, ⟨13, _⟩ => ⟨S4x1024x32768, .f32⟩
  | .hbm, ⟨14, _⟩ => ⟨S_, .f32⟩
  | .hbm, ⟨15, _⟩ => ⟨S4x1024x32768, .f32⟩
  | .hbm, ⟨16, _⟩ => ⟨S4x1024x32768, .f32⟩
  | .hbm, ⟨17, _⟩ => ⟨S4x1024x32768, .f32⟩
  | .hbm, ⟨18, _⟩ => ⟨S_, .f32⟩
  | .hbm, ⟨19, _⟩ => ⟨S4x1024x32768, .f32⟩
  | .hbm, ⟨20, _⟩ => ⟨S4x1024x32768, .f32⟩
  | .hbm, ⟨21, _⟩ => ⟨S4x1024x32768, .f32⟩
  | .hbm, ⟨22, _⟩ => ⟨S_, .f32⟩
  | .hbm, ⟨23, _⟩ => ⟨S4x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S4x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x3x1024_S4x1024_d1 : S4x3x1024.ReducesTo [1] S4x1024
  h_S_ : 0 < S_.numel
  reducesTo_S4x3x32768_S4x32768_d1 : S4x3x32768.ReducesTo [1] S4x32768
  bcast_S4x1024_S4x1024x1_0_1 : S4x1024.BroadcastsInDim S4x1024x1 (![0, 1] : Fin 2 → Fin S4x1024x1.rank)
  bcast_S4x32768_S4x1x32768_0_2 : S4x32768.BroadcastsInDim S4x1x32768 (![0, 2] : Fin 2 → Fin S4x1x32768.rank)
  bcast_S4x1024x1_S4x1024x32768_0_1_2 : S4x1024x1.BroadcastsInDim S4x1024x32768 (![0, 1, 2] : Fin 3 → Fin S4x1024x32768.rank)
  bcast_S4x1x32768_S4x1024x32768_0_1_2 : S4x1x32768.BroadcastsInDim S4x1024x32768 (![0, 1, 2] : Fin 3 → Fin S4x1024x32768.rank)
  bcast_S_S4x1024x32768 : S_.BroadcastsInDim S4x1024x32768 (![] : Fin 0 → Fin S4x1024x32768.rank)
  reducesTo_S4x1024x32768_S4x1024_d2 : S4x1024x32768.ReducesTo [2] S4x1024
  reducesTo_S4x1024_S_d0_1 : S4x1024.ReducesTo [0, 1] S_
  dot_S4x3x1024_S4x3x32768_S4x1024x32768_1_1_2_2_0_0_wf : DotDims.WF S4x3x1024 S4x3x32768 S4x1024x32768 [1] [1] [2] [2] [0] [0]

variable [Facts₀]

def dot_S4x3x1024_S4x3x32768_S4x1024x32768_1_1_2_2_0_0 : DotDims S4x3x1024 S4x3x32768 S4x1024x32768 where
  lhsContracting := [1]
  rhsContracting := [1]
  lhsNonContracting := [2]
  rhsNonContracting := [2]
  lhsBatch := [0]
  rhsBatch := [0]
  wf := dot_S4x3x1024_S4x3x32768_S4x1024x32768_1_1_2_2_0_0_wf

class Facts : Prop extends Facts₀ where

variable [Facts]
-- ==== Proof.NearestSpec.lean ====
/-
  What both programs compute, stated once over plain functions into the extended reals.

  Two point clouds are given by coordinates: `k` of shape [4, 3, 1024] and `p` of shape [4, 3, 32768]
  (batch, coordinate, point). Entry (b, m) of the nearest-neighbour table is the least, over the 32768 points n of
  batch b, of the distance from point m to point n in the expanded quadratic form
      √ max((|k_m|² + |p_n|²) − 2·⟨k_m, p_n⟩, 0),
  the minimum being taken from +∞. A minimum over all n may be taken one stretch of 2048 points at a time, each
  stretch's minimum folded into a running one that starts at +∞: `min` on a linear order is determined by its lower
  bounds, and a value is below the running minimum after J stretches exactly when it is below +∞ and below the
  distance to each of the first 2048·J points (`Covers`). Both programs then take the table's mean the same way (`mean`). That characterisation is carried through a restart
  (`covers_first`), through one more stretch (`covers_next`), and read off after the sixteenth (`covers_all`).
  No arithmetic law of the extended reals is used beyond the order: nothing here needs the inputs finite.
-/
import Idealize.ShloMosaic.PureOps.Ideal
import Idealize.ShloMosaic.PureOps.Ideal.Laws
import Idealize.ShloMosaic.Lib.ValueIdx

noncomputable section

namespace Cert.Nearest

open Idealize.ShloMosaic Idealize.ShloMosaic.ValueIdx

/-- The three float words the programs spell: 2, 0 and +∞. They are never evaluated: the same word stands on both sides. -/
abbrev two : EReal := Ideal.ofBits .f32 0x40000000#32
abbrev zero : EReal := Ideal.ofBits .f32 0x00000000#32
abbrev top : EReal := Ideal.ofBits .f32 0x7F800000#32

/-- The distance between two points of three coordinates each, in the expanded quadratic form. -/
def dist (x y : Fin 3 → EReal) : EReal :=
  Ideal.sqrt (max (((∑ d : Fin 3, x d * x d) + (∑ d : Fin 3, y d * y d)) - two * (∑ d : Fin 3, x d * y d)) zero)

/-- The distance from point `m` of cloud `k` to point `n` of cloud `p`, both of batch `b`. -/
def pointDist (k : (⟨3, ![4, 3, 1024]⟩ : Shape).Idx → EReal) (p : (⟨3, ![4, 3, 32768]⟩ : Shape).Idx → EReal)
    (b : Fin 4) (m : Fin 1024) (n : Fin 32768) : EReal :=
  dist (fun d => k (ix3 b d m)) (fun d => p (ix3 b d n))

/-- The nearest-neighbour table: at (b, m) the least distance from point m to any point of `p`, from +∞. -/
def nearest (k : (⟨3, ![4, 3, 1024]⟩ : Shape).Idx → EReal) (p : (⟨3, ![4, 3, 32768]⟩ : Shape).Idx → EReal) :
    (⟨2, ![4, 1024]⟩ : Shape).Idx → EReal :=
  fun i => (Finset.univ : Finset (Fin 32768)).fold min top (pointDist k p (i 0) (i 1))

/-- One stretch's minimum: over the 2048 points of a block `y` of `p`, for the 256 points of a block `x` of `k`. -/
def stretchMin (x : (⟨3, ![4, 3, 256]⟩ : Shape).Idx → EReal) (y : (⟨3, ![4, 3, 2048]⟩ : Shape).Idx → EReal)
    (b : Fin 4) (q : Fin 256) : EReal :=
  (Finset.univ : Finset (Fin 2048)).fold min top (fun n' => dist (fun d => x (ix3 b d q)) (fun d => y (ix3 b d n')))

/-- Both programs finish alike: the table's 4096 entries summed from the word 0, the sum divided by the word 4096. The
    two reductions' side facts are propositions, so any two spellings of this term agree. -/
theorem mean_red : (⟨2, ![4, 1024]⟩ : Shape).ReducesTo [0, 1] ⟨0, ![]⟩ := by decide
theorem mean_pos : 0 < (⟨0, ![]⟩ : Shape).numel := by decide

def mean (v : (⟨2, ![4, 1024]⟩ : Shape).Idx → EReal) : (⟨0, ![]⟩ : Shape).Idx → EReal :=
  Host.divf (F := Ideal) (φ := .f32)
    (Host.reduceAdd (F := Ideal) (φ := .f32) v (constant (F := Ideal) ⟨0, ![]⟩ .f32 0x00000000#32) mean_red mean_pos)
    (constant (F := Ideal) ⟨0, ![]⟩ .f32 0x45800000#32)

/-- `r` is the minimum, from +∞, of `f` over the first `2048 · J` points: said by its lower bounds. -/
def Covers (J : ℕ) (r : EReal) (f : Fin 32768 → EReal) : Prop :=
  ∀ c : EReal, c ≤ r ↔ c ≤ top ∧ ∀ n : Fin 32768, n.val < 2048 * J → c ≤ f n

/-- The running minimum restarted at +∞ and given the first stretch covers 2048 points. -/
theorem covers_first (f : Fin 32768 → EReal) (g : Fin 2048 → EReal)
    (hg : ∀ (n' : Fin 2048) (n : Fin 32768), n.val = n'.val → g n' = f n) :
    Covers 1 (min top ((Finset.univ : Finset (Fin 2048)).fold min top g)) f := by
  intro c
  rw [le_min_iff, Finset.le_fold_min]
  constructor
  · rintro ⟨ht, -, h⟩
    exact ⟨ht, fun n hn => (hg ⟨n.val, by omega⟩ n rfl) ▸ h _ (Finset.mem_univ _)⟩
  · rintro ⟨ht, h⟩
    exact ⟨ht, ht, fun n' _ => (hg n' ⟨n'.val, by have := n'.isLt; omega⟩ rfl) ▸ h _ (by have := n'.isLt; simp only; omega)⟩

/-- Folding stretch `J` into a running minimum that covers the first `J` stretches covers `J + 1` of them. -/
theorem covers_next (J : ℕ) (hJ : J < 16) (r : EReal) (f : Fin 32768 → EReal) (g : Fin 2048 → EReal)
    (hr : Covers J r f) (hg : ∀ (n' : Fin 2048) (n : Fin 32768), n.val = 2048 * J + n'.val → g n' = f n) :
    Covers (J + 1) (min r ((Finset.univ : Finset (Fin 2048)).fold min top g)) f := by
  intro c
  rw [le_min_iff, hr c, Finset.le_fold_min]
  constructor
  · rintro ⟨⟨ht, h1⟩, -, h2⟩
    refine ⟨ht, fun n hn => ?_⟩
    by_cases h : n.val < 2048 * J
    · exact h1 n h
    · exact (hg ⟨n.val - 2048 * J, by omega⟩ n (by simp only; omega)) ▸ h2 _ (Finset.mem_univ _)
  · rintro ⟨ht, h⟩
    refine ⟨⟨ht, fun n hn => h n (by omega)⟩, ht, fun n' _ => ?_⟩
    have hn' := n'.isLt
    exact (hg n' ⟨2048 * J + n'.val, by omega⟩ rfl) ▸ h _ (by simp only; omega)

/-- After the sixteenth stretch the running minimum is the minimum over all 32768 points. -/
theorem covers_all (r : EReal) (f : Fin 32768 → EReal) (hr : Covers 16 r f) :
    r = (Finset.univ : Finset (Fin 32768)).fold min top f :=
  eq_of_forall_le_iff fun c => by
    rw [hr c, Finset.le_fold_min]
    exact ⟨fun ⟨ht, h⟩ => ⟨ht, fun n _ => h n (by have := n.isLt; omega)⟩, fun ⟨ht, h⟩ => ⟨ht, fun n _ => h n (Finset.mem_univ _)⟩⟩

end Cert.Nearest

end
-- ==== Proof.LibMinReduce.lean ====
/-
  A minimum-reduction over ONE axis, read at the ideal values, as the fold of `min` over that axis's coordinates.

  On the extended reals `min` commutes and associates, so a reduction that folds in row-major order is the fold over
  the set of indices that drop to the result index, in any order, and for a single reduced axis that set is the
  image of the axis's coordinates under "insert the coordinate on the dropped axis". The first lemma says this of a
  vector `multi_reduction <minimumf>`, from the accumulator's value; the second of a host `reduce` whose body is the
  minimum, from the initial value's one element.
-/
import Idealize.ShloMosaic.PureOps.Ideal
import Idealize.ShloMosaic.PureOps.Ideal.Laws
import Idealize.ShloMosaic.PureOps.Reduce

namespace Cert.LibMinReduce

open Idealize.ShloMosaic

variable {φ : FTy}

/-- A float `multi_reduction <minimumf>` over one axis, at the ideal values: at each reduced index the fold of `min`,
    from the accumulator's value, over the dropped axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A host `reduce` with a minimum body over one axis, at the ideal values: at each reduced index the fold of `min`,
    from the initial value's element, over the dropped axis's coordinates. -/
theorem hostReduce_minimumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end Cert.LibMinReduce
-- ==== Proof.StretchValue.lean ====
/-
  What one grid point's body computes, at the ideal values, entry by entry.

  The body holds a block `x` of 256 points of the first cloud and a block `y` of 2048 points of the second, both
  [4, 3, ·] (batch, coordinate, point). It forms the squared norms by a sum over the coordinate axis, the inner
  products by one batched matrix product contracting the coordinate axis, lays the two norm tables along the rows and
  the columns of a [4, 256, 2048] table, and takes `√ max((|x_q|² + |y_n|²) − 2·⟨x_q, y_n⟩, 0)`: at (b, q, n) that is
  the distance `Nearest.dist` between point q of `x` and point n of `y` (`distTable_apply`). Its minimum along n, from
  +∞, is the stretch's minimum (`Nearest.stretchMin`), and the body stores the smaller of that and what the output block
  held (`update_apply`). The narrowing of the matrix product's operands to sixteen bits is the identity at the ideal
  values, and the product into a zero accumulator is the plain sum of the three coordinate products.
-/
import proofs.«170307_j27642409517714_1_alg».proof.Proof.Gen.KernelIdeal.Skeleton
import proofs.«170307_j27642409517714_1_alg».proof.Proof.NearestSpec
import proofs.«170307_j27642409517714_1_alg».proof.Proof.LibMinReduce
import Idealize.ShloMosaic.Lib.Pipeline.Value
import Idealize.ShloMosaic.Lib.ValueIdx
import Idealize.ShloMosaic.PureOps.Ideal.Laws

noncomputable section

namespace Cert.KernelIdeal.Stretch

open Cert.KernelIdeal Cert.KernelIdeal.Gen Idealize.ShloMosaic Idealize.ShloMosaic.ValueIdx

/-! ## The body's intermediate tables, named -/

/-- The squared norms of the block's 256 points. -/
def normsX (x : FVec Ideal S4x3x256 .f32) : FVec Ideal S4x256 .f32 :=
  multiReduction .add [1] S4x256 (mulf x x) 0x00000000#32 reduces_S4x3x256_S4x256 (.inl rfl) rfl

/-- The squared norms of the block's 2048 points. -/
def normsY (y : FVec Ideal S4x3x2048 .f32) : FVec Ideal S4x2048 .f32 :=
  multiReduction .add [1] S4x2048 (mulf y y) 0x00000000#32 reduces_S4x3x2048_S4x2048 (.inl rfl) rfl

/-- The inner products, one batched matrix product over the coordinate axis. -/
def inner (x : FVec Ideal S4x3x256 .f32) (y : FVec Ideal S4x3x2048 .f32) : FVec Ideal S4x256x2048 .f32 :=
  matmul dot_S4x3x256_S4x3x2048_S4x256x2048_1_1_2_2_0_0 none (truncf .bf16 x bitsLt_bf16_f32) (truncf .bf16 y bitsLt_bf16_f32)
    (constant S4x256x2048 .f32 0x00000000#32)

/-- The table of distances between the two blocks' points. -/
def distTable (x : FVec Ideal S4x3x256 .f32) (y : FVec Ideal S4x3x2048 .f32) : FVec Ideal S4x256x2048 .f32 :=
  sqrt (maximumf
    (subf (addf (broadcastTo S4x256x2048 (shapeCast S4x256x1 (normsX x) shapeCasts_S4x256_S4x256x1) broadcasts_S4x256x1_S4x256x2048)
                (broadcastTo S4x256x2048 (shapeCast S4x1x2048 (normsY y) shapeCasts_S4x2048_S4x1x2048) broadcasts_S4x1x2048_S4x256x2048))
          (mulf (broadcast S4x256x2048 (Scalar.ofBits .f32 0x40000000#32)) (inner x y)))
    (broadcast S4x256x2048 (Scalar.ofBits .f32 0x00000000#32)))

/-- The stored value is the smaller of the block's old contents and the distance table's minimum along its last axis. -/
theorem update_eq (x : FVec Ideal S4x3x256 .f32) (y : FVec Ideal S4x3x2048 .f32) (old : FVec Ideal S4x256 .f32) :
    k0_pay2 (F := Ideal) x y old
      = minimumf (shapeCast S4x256 old shapeCasts_S4x256_S4x256)
          (multiReduction .minimumf [2] S4x256 (distTable x y) 0x7F800000#32 reduces_S4x256x2048_S4x256 (.inl rfl) rfl) := rfl

/-! ## Indices -/

theorem lift_normsX (b : Fin 4) (q : Fin 256) (d : Fin 3) : reduces_S4x3x256_S4x256.lift (ix2 b q) d = ix3 b d q :=
  funext fun a => Fin.ext (by match a with | ⟨0, _⟩ => rfl | ⟨1, _⟩ => rfl | ⟨2, _⟩ => rfl)

theorem lift_normsY (b : Fin 4) (n : Fin 2048) (d : Fin 3) : reduces_S4x3x2048_S4x2048.lift (ix2 b n) d = ix3 b d n :=
  funext fun a => Fin.ext (by match a with | ⟨0, _⟩ => rfl | ⟨1, _⟩ => rfl | ⟨2, _⟩ => rfl)

theorem lift_min (b : Fin 4) (q : Fin 256) (n : Fin 2048) : reduces_S4x256x2048_S4x256.lift (ix2 b q) n = ix3 b q n :=
  funext fun a => Fin.ext (by match a with | ⟨0, _⟩ => rfl | ⟨1, _⟩ => rfl | ⟨2, _⟩ => rfl)

/-! ## The tables at an index -/

theorem normsX_apply (x : FVec Ideal S4x3x256 .f32) (b : Fin 4) (q : Fin 256) :
    normsX x (ix2 b q) = ∑ d : Fin 3, x (ix3 b d q) * x (ix3 b d q) := by
  unfold normsX
  refine (Ideal.multiReduction_add_single (mulf x x) 0x00000000#32 reduces_S4x3x256_S4x256 (.inl rfl) rfl (ix2 b q)).trans ?_
  exact Finset.sum_congr rfl fun d _ => congrArg (fun i => x i * x i) (lift_normsX b q d)

theorem normsY_apply (y : FVec Ideal S4x3x2048 .f32) (b : Fin 4) (n : Fin 2048) :
    normsY y (ix2 b n) = ∑ d : Fin 3, y (ix3 b d n) * y (ix3 b d n) := by
  unfold normsY
  refine (Ideal.multiReduction_add_single (mulf y y) 0x00000000#32 reduces_S4x3x2048_S4x2048 (.inl rfl) rfl (ix2 b n)).trans ?_
  exact Finset.sum_congr rfl fun d _ => congrArg (fun i => y i * y i) (lift_normsY b n d)

/-- A table over (b, q) laid along the rows of a (b, q, n) table: a unit axis appended, then repeated along it. -/
theorem rows_apply (v : FVec Ideal S4x256 .f32) (b : Fin 4) (q : Fin 256) (n : Fin 2048) :
    broadcastTo S4x256x2048 (shapeCast S4x256x1 v shapeCasts_S4x256_S4x256x1) broadcasts_S4x256x1_S4x256x2048 (ix3 b q n) = v (ix2 b q) := by
  refine (broadcastTo_apply _ broadcasts_S4x256x1_S4x256x2048 (ix3 b q n) (ix3 b q (0 : Fin 1)) (fun a => ?_)).trans ?_
  · match a with
    | ⟨0, _⟩ => show b.val = if (4 : Nat) = 1 then 0 else b.val; rw [if_neg (by decide)]
    | ⟨1, _⟩ => show q.val = if (256 : Nat) = 1 then 0 else q.val; rw [if_neg (by decide)]
    | ⟨2, _⟩ => show 0 = if (1 : Nat) = 1 then 0 else n.val; rw [if_pos rfl]
  · refine shapeCast_apply v shapeCasts_S4x256_S4x256x1 (ix3 b q (0 : Fin 1)) (ix2 b q) ?_
    rw [Shape.rowMajor_val_two, Shape.rowMajor_val_three]
    show b.val * 256 + q.val = (b.val * 256 + q.val) * 1 + 0
    omega

/-- A table over (b, n) laid along the columns of a (b, q, n) table: a unit axis inserted, then repeated along it. -/
theorem cols_apply (v : FVec Ideal S4x2048 .f32) (b : Fin 4) (q : Fin 256) (n : Fin 2048) :
    broadcastTo S4x256x2048 (shapeCast S4x1x2048 v shapeCasts_S4x2048_S4x1x2048) broadcasts_S4x1x2048_S4x256x2048 (ix3 b q n) = v (ix2 b n) := by
  refine (broadcastTo_apply _ broadcasts_S4x1x2048_S4x256x2048 (ix3 b q n) (ix3 b (0 : Fin 1) n) (fun a => ?_)).trans ?_
  · match a with
    | ⟨0, _⟩ => show b.val = if (4 : Nat) = 1 then 0 else b.val; rw [if_neg (by decide)]
    | ⟨1, _⟩ => show 0 = if (1 : Nat) = 1 then 0 else q.val; rw [if_pos rfl]
    | ⟨2, _⟩ => show n.val = if (2048 : Nat) = 1 then 0 else n.val; rw [if_neg (by decide)]
  · refine shapeCast_apply v shapeCasts_S4x2048_S4x1x2048 (ix3 b (0 : Fin 1) n) (ix2 b n) ?_
    rw [Shape.rowMajor_val_two, Shape.rowMajor_val_three]
    show b.val * 2048 + n.val = (b.val * 1 + 0) * 2048 + n.val
    omega

/-! ## The batched product at an index -/

theorem lhs_inner_0 (i : S4x256x2048.Idx) (k : dot_S4x3x256_S4x3x2048_S4x256x2048_1_1_2_2_0_0.contr.Idx) :
    (dot_S4x3x256_S4x3x2048_S4x256x2048_1_1_2_2_0_0.lhsIdx i k 0).val = (i 0).val := by
  unfold DotDims.lhsIdx
  rw [dif_pos (show (0 : Fin S4x3x256.rank) ∈ dot_S4x3x256_S4x3x2048_S4x256x2048_1_1_2_2_0_0.lhsBatch by decide)]
  rfl
theorem lhs_inner_1 (i : S4x256x2048.Idx) (k : dot_S4x3x256_S4x3x2048_S4x256x2048_1_1_2_2_0_0.contr.Idx) :
    (dot_S4x3x256_S4x3x2048_S4x256x2048_1_1_2_2_0_0.lhsIdx i k 1).val = (k ⟨0, by decide⟩).val :=
  dot_S4x3x256_S4x3x2048_S4x256x2048_1_1_2_2_0_0.lhsIdx_val_of_single rfl i k
theorem lhs_inner_2 (i : S4x256x2048.Idx) (k : dot_S4x3x256_S4x3x2048_S4x256x2048_1_1_2_2_0_0.contr.Idx) :
    (dot_S4x3x256_S4x3x2048_S4x256x2048_1_1_2_2_0_0.lhsIdx i k 2).val = (i 1).val := by
  unfold DotDims.lhsIdx
  rw [dif_neg (show ¬(2 : Fin S4x3x256.rank) ∈ dot_S4x3x256_S4x3x2048_S4x256x2048_1_1_2_2_0_0.lhsBatch by decide),
    dif_pos (show (2 : Fin S4x3x256.rank) ∈ dot_S4x3x256_S4x3x2048_S4x256x2048_1_1_2_2_0_0.lhsNonContracting by decide)]
  rfl
theorem rhs_inner_0 (i : S4x256x2048.Idx) (k : dot_S4x3x256_S4x3x2048_S4x256x2048_1_1_2_2_0_0.contr.Idx) :
    (dot_S4x3x256_S4x3x2048_S4x256x2048_1_1_2_2_0_0.rhsIdx i k 0).val = (i 0).val := by
  unfold DotDims.rhsIdx
  rw [dif_pos (show (0 : Fin S4x3x2048.rank) ∈ dot_S4x3x256_S4x3x2048_S4x256x2048_1_1_2_2_0_0.rhsBatch by decide)]
  rfl
theorem rhs_inner_1 (i : S4x256x2048.Idx) (k : dot_S4x3x256_S4x3x2048_S4x256x2048_1_1_2_2_0_0.contr.Idx) :
    (dot_S4x3x256_S4x3x2048_S4x256x2048_1_1_2_2_0_0.rhsIdx i k 1).val = (k ⟨0, by decide⟩).val :=
  dot_S4x3x256_S4x3x2048_S4x256x2048_1_1_2_2_0_0.rhsIdx_val_of_single rfl i k
theorem rhs_inner_2 (i : S4x256x2048.Idx) (k : dot_S4x3x256_S4x3x2048_S4x256x2048_1_1_2_2_0_0.contr.Idx) :
    (dot_S4x3x256_S4x3x2048_S4x256x2048_1_1_2_2_0_0.rhsIdx i k 2).val = (i 2).val := by
  unfold DotDims.rhsIdx
  rw [dif_neg (show ¬(2 : Fin S4x3x2048.rank) ∈ dot_S4x3x256_S4x3x2048_S4x256x2048_1_1_2_2_0_0.rhsBatch by decide),
    dif_pos (show (2 : Fin S4x3x2048.rank) ∈ dot_S4x3x256_S4x3x2048_S4x256x2048_1_1_2_2_0_0.rhsNonContracting by decide)]
  rfl

/-- The inner product of point q of `x` and point n of `y`: the three coordinate products, summed. -/
theorem inner_apply (x : FVec Ideal S4x3x256 .f32) (y : FVec Ideal S4x3x2048 .f32) (b : Fin 4) (q : Fin 256) (n : Fin 2048) :
    inner x y (ix3 b q n) = ∑ d : Fin 3, x (ix3 b d q) * y (ix3 b d n) := by
  unfold inner
  simp only [matmul]
  rw [Ideal.matmul_constant_zero_apply, ← Equiv.sum_comp (ValueIdx.contrEquiv1 dot_S4x3x256_S4x3x2048_S4x256x2048_1_1_2_2_0_0 3 rfl rfl).symm]
  refine Finset.sum_congr rfl fun d _ => ?_
  have hd := ValueIdx.contrEquiv1_symm_val dot_S4x3x256_S4x3x2048_S4x256x2048_1_1_2_2_0_0 3 rfl rfl d
  have el : dot_S4x3x256_S4x3x2048_S4x256x2048_1_1_2_2_0_0.lhsIdx (ix3 b q n) ((ValueIdx.contrEquiv1 dot_S4x3x256_S4x3x2048_S4x256x2048_1_1_2_2_0_0 3 rfl rfl).symm d) = ix3 b d q := funext fun a => Fin.ext (by
    match a with
    | ⟨0, _⟩ => exact lhs_inner_0 _ _
    | ⟨1, _⟩ => exact (lhs_inner_1 _ _).trans hd
    | ⟨2, _⟩ => exact lhs_inner_2 _ _)
  have er : dot_S4x3x256_S4x3x2048_S4x256x2048_1_1_2_2_0_0.rhsIdx (ix3 b q n) ((ValueIdx.contrEquiv1 dot_S4x3x256_S4x3x2048_S4x256x2048_1_1_2_2_0_0 3 rfl rfl).symm d) = ix3 b d n := funext fun a => Fin.ext (by
    match a with
    | ⟨0, _⟩ => exact rhs_inner_0 _ _
    | ⟨1, _⟩ => exact (rhs_inner_1 _ _).trans hd
    | ⟨2, _⟩ => exact rhs_inner_2 _ _)
  rw [el, er]
  rfl

/-! ## The distance table and the stored value at an index -/

/-- Entry (b, q, n) of the distance table is the distance between point q of `x` and point n of `y`. -/
theorem distTable_apply (x : FVec Ideal S4x3x256 .f32) (y : FVec Ideal S4x3x2048 .f32) (b : Fin 4) (q : Fin 256) (n : Fin 2048) :
    distTable x y (ix3 b q n) = Nearest.dist (fun d => x (ix3 b d q)) (fun d => y (ix3 b d n)) := by
  unfold distTable Nearest.dist
  show Ideal.sqrt (max ((broadcastTo S4x256x2048 (shapeCast S4x256x1 (normsX x) shapeCasts_S4x256_S4x256x1) broadcasts_S4x256x1_S4x256x2048 (ix3 b q n)
      + broadcastTo S4x256x2048 (shapeCast S4x1x2048 (normsY y) shapeCasts_S4x2048_S4x1x2048) broadcasts_S4x1x2048_S4x256x2048 (ix3 b q n))
      - Ideal.ofBits .f32 0x40000000#32 * inner x y (ix3 b q n)) (Ideal.ofBits .f32 0x00000000#32)) = _
  rw [rows_apply, cols_apply, normsX_apply, normsY_apply, inner_apply]

/-- The value stored at (b, q): the smaller of the old entry and the least distance from point q to the block's points. -/
theorem update_apply (x : FVec Ideal S4x3x256 .f32) (y : FVec Ideal S4x3x2048 .f32) (old : FVec Ideal S4x256 .f32) (b : Fin 4) (q : Fin 256) :
    k0_pay2 (F := Ideal) x y old (ix2 b q) = min (old (ix2 b q)) (Nearest.stretchMin x y b q) := by
  rw [update_eq, shapeCast_self]
  refine congrArg (min (old (ix2 b q))) ?_
  refine (LibMinReduce.multiReduction_minimumf_single (distTable x y) 0x7F800000#32 reduces_S4x256x2048_S4x256 (.inl rfl) rfl (ix2 b q)).trans ?_
  unfold Nearest.stretchMin
  exact Finset.fold_congr fun n _ => (congrArg (distTable x y) (lift_min b q n)).trans (distTable_apply x y b q n)

/-- The reset stores +∞ everywhere. -/
theorem reset_apply (i : S4x256.Idx) : (k0_pay1 (F := Ideal)) i = Nearest.top := rfl

end Cert.KernelIdeal.Stretch

end
-- ==== Proof.RunningMin.lean ====
/-
  The running minimum across the grid.

  The grid has 4 × 16 points; point t = 16·i + j works on block i of the first cloud (points 256·i … 256·i + 255) and
  stretch j of the second (points 2048·j … 2048·j + 2047), and its output block (b, q) ↦ (b, 256·i + q) is kept in
  its staging buffer from j = 0 to j = 15. At j = 0 the body first stores +∞ and then the update over it; at the other
  points it stores the update over what the point before left. So after point t the buffer's entry (b, q) is the
  minimum, from +∞, of the distances from point 256·i + q to the first 2048·(j + 1) points of the second cloud
  (`covers_at`, by induction on the point), and after j = 15 it is the nearest-neighbour table's entry (`last_eq`).
-/
import proofs.«170307_j27642409517714_1_alg».proof.Proof.Gen.KernelIdeal.Frame
import proofs.«170307_j27642409517714_1_alg».proof.Proof.StretchValue
import Idealize.ShloMosaic.Lib.Pipeline.Value
import Idealize.ShloMosaic.Lib.Tactic

noncomputable section

namespace Cert.KernelIdeal.Running

open Cert.KernelIdeal Cert.KernelIdeal.Gen Idealize.ShloMosaic Idealize.ShloMosaic.TcCoe Idealize.SL.Sem
open Idealize.ShloMosaic.ValueIdx
open Idealize.ShloMosaic.Pipeline (Dat)

/-! ## What each case leaves, at any float instance -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not first in its row of the grid leaves the update of the buffer's old contents. -/
theorem out_B (c : Dev nD) (i : grid0.Coords) (a2 : Memref sig .tc .vmem S4x3x256 .f32) (h2 : a2.IsWhole)
    (a3 : Memref sig .tc .vmem S4x3x2048 .f32) (h3 : a3.IsWhole) (a4 : Memref sig .tc .vmem S4x256 .f32) (h4 : a4.IsWhole)
    (hc : ¬cond0_0 i) (x : Vec F S4x3x256 .f32) (y : Vec F S4x3x2048 .f32) (old : Vec F S4x256 .f32) :
    out0_B_2 c i a2 h2 a3 h3 a4 h4 hc x y old = k0_pay2 x y old := by
  unfold out0_B_2
  rw [View.read_writes_eq_canon _ _ _ (cover0_B_2 c i a2 h2 a3 h3 a4 h4 hc x y old)]
  unfold kernelRun0_B
  dsimp only
  sl_unfold_words
  rw [View.canon_unit_zero hz2]
  simp only [View.readAt_eq_ld, h2.read_unread, h3.read_unread, h4.read_unread, View.ld_unit_zero (S := S4x3x256) hz3,
    View.ld_unit_zero (S := S4x3x2048) hz3, View.ld_unit_zero (S := S4x256) hz2]

/-- A point that is first in its row leaves the update of the +∞ block it has just stored. -/
theorem out_A (c : Dev nD) (i : grid0.Coords) (a2 : Memref sig .tc .vmem S4x3x256 .f32) (h2 : a2.IsWhole)
    (a3 : Memref sig .tc .vmem S4x3x2048 .f32) (h3 : a3.IsWhole) (a4 : Memref sig .tc .vmem S4x256 .f32) (h4 : a4.IsWhole)
    (hc : cond0_0 i) (x : Vec F S4x3x256 .f32) (y : Vec F S4x3x2048 .f32) :
    out0_A_2 c i a2 h2 a3 h3 a4 h4 hc x y = k0_pay2 x y (k0_pay1 (F := F)) := by
  unfold out0_A_2
  rw [View.read_writes_eq_canon _ _ _ (cover0_A_2 c i a2 h2 a3 h3 a4 h4 hc x y)]
  unfold kernelRun0_A
  dsimp only
  sl_unfold_words
  rw [View.canon_cons_unit_zero (S := S4x256) hz2, View.readCov_unit_zero (S := S4x256) _ hz2]
  simp only [View.readAt_eq_ld, h2.read_unread, h3.read_unread, View.ld_unit_zero (S := S4x3x256) hz3,
    View.ld_unit_zero (S := S4x3x2048) hz3, View.ld_unit_zero (S := S4x256) hz2]

variable (m : (ℓ : Loc nD τ sig) → Buf (Elt F) ℓ)

/-- The two input blocks at a point and the two argument arrays, at their literal shapes. -/
abbrev xblk (c : Dev nD) (t : Fin cfg0.N) : Vec F S4x3x256 .f32 := iblk m c 0 t
abbrev yblk (c : Dev nD) (t : Fin cfg0.N) : Vec F S4x3x2048 .f32 := iblk m c 1 t
abbrev karr (c : Dev nD) : Vec F S4x3x1024 .f32 := V m c main_arg0
abbrev parr (c : Dev nD) : Vec F S4x3x32768 .f32 := V m c main_arg1

theorem outsAt_first (c : Dev nD) (t : Fin cfg0.N) (h0 : t.val % 16 = 0) :
    outsAt0 m c t.val t.isLt = k0_pay2 (xblk m c t) (yblk m c t) (k0_pay1 (F := F)) :=
  (outsAt0_A m c t h0).trans
    (out_A c (grid0.coords t) (ms0_0 t) (hs0_0 t) (ms0_1 t) (hs0_1 t) (ms0_2 t) (hs0_2 t) ((hcond0_0 t).mpr h0) (iblk m c 0 t) (iblk m c 1 t))

theorem outsAt_later (c : Dev nD) (t : Fin cfg0.N) (h0 : ¬t.val % 16 = 0) :
    outsAt0 m c t.val t.isLt
      = k0_pay2 (xblk m c t) (yblk m c t) (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (fun h => h0 ((hcond0_0 t).mp h)) (iblk m c 0 t) (iblk m c 1 t)
      (outsAt0 m c (t.val - 1) (Nat.lt_of_le_of_lt (Nat.sub_le _ _) t.isLt)))

/-! ## The blocks are stretches of the argument arrays -/

/-- The index maps over the grid: the first cloud's block moves with the row, the second's with the column. -/
theorem idx_x : ∀ t : Fin cfg0.N, win0_0.index t 0 = 0 ∧ win0_0.index t 1 = 0 ∧ win0_0.index t 2 = t.val / 16 :=
  (by decide +kernel : ∀ t : Fin grid0.N, win0_0.index t 0 = 0 ∧ win0_0.index t 1 = 0 ∧ win0_0.index t 2 = t.val / 16)
theorem idx_y : ∀ t : Fin cfg0.N, win0_1.index t 0 = 0 ∧ win0_1.index t 1 = 0 ∧ win0_1.index t 2 = t.val % 16 :=
  (by decide +kernel : ∀ t : Fin grid0.N, win0_1.index t 0 = 0 ∧ win0_1.index t 1 = 0 ∧ win0_1.index t 2 = t.val % 16)

/-- Point q of the first cloud's block at point t is point 256·(t / 16) + q of the cloud. -/
theorem xblk_apply (c : Dev nD) (t : Fin cfg0.N) (b : Fin 4) (d : Fin 3) (q : Fin 256) (mm : Fin 1024)
    (hmm : mm.val = 256 * (t.val / 16) + q.val) : xblk m c t (ix3 b d q) = karr m c (ix3 b d mm) := by
  obtain ⟨i0, i1, i2⟩ := idx_x t
  unfold xblk iblk
  rw [View.read_apply]
  show V m c main_arg0 _ = V m c main_arg0 _
  congr 1
  funext a
  apply Fin.ext
  match a with
  | ⟨0, _⟩ => show win0_0.index t 0 * 4 + 1 * b.val = b.val; rw [i0]; omega
  | ⟨1, _⟩ => show win0_0.index t 1 * 3 + 1 * d.val = d.val; rw [i1]; omega
  | ⟨2, _⟩ => show win0_0.index t 2 * 256 + 1 * q.val = mm.val; rw [i2, hmm]; omega

/-- Point n' of the second cloud's block at point t is point 2048·(t % 16) + n' of the cloud. -/
theorem yblk_apply (c : Dev nD) (t : Fin cfg0.N) (b : Fin 4) (d : Fin 3) (n' : Fin 2048) (n : Fin 32768)
    (hn : n.val = 2048 * (t.val % 16) + n'.val) : yblk m c t (ix3 b d n') = parr m c (ix3 b d n) := by
  obtain ⟨i0, i1, i2⟩ := idx_y t
  unfold yblk iblk
  rw [View.read_apply]
  show V m c main_arg1 _ = V m c main_arg1 _
  congr 1
  funext a
  apply Fin.ext
  match a with
  | ⟨0, _⟩ => show win0_1.index t 0 * 4 + 1 * b.val = b.val; rw [i0]; omega
  | ⟨1, _⟩ => show win0_1.index t 1 * 3 + 1 * d.val = d.val; rw [i1]; omega
  | ⟨2, _⟩ => show win0_1.index t 2 * 2048 + 1 * n'.val = n.val; rw [i2, hn]; omega

end Pieces

/-! ## The invariant, at the ideal values -/

variable (m : (ℓ : Loc nD τ sig) → Buf (Elt Ideal) ℓ)

/-- The distances a stretch's minimum ranges over are the cloud-to-cloud distances of that stretch. -/
theorem stretch_dist (c : Dev nD) (t : Fin cfg0.N) (b : Fin 4) (q : Fin 256) (mm : Fin 1024) (hmm : mm.val = 256 * (t.val / 16) + q.val)
    (n' : Fin 2048) (n : Fin 32768) (hn : n.val = 2048 * (t.val % 16) + n'.val) :
    Nearest.dist (fun d => xblk m c t (ix3 b d q)) (fun d => yblk m c t (ix3 b d n'))
      = Nearest.pointDist (karr m c) (parr m c) b mm n := by
  unfold Nearest.pointDist
  exact congrArg₂ Nearest.dist (funext fun d => xblk_apply m c t b d q mm hmm) (funext fun d => yblk_apply m c t b d n' n hn)

/-- After point n the buffer's entry (b, q) covers the first (n % 16 + 1) stretches of the distances from point
    256·(n / 16) + q. -/
theorem covers_at (c : Dev nD) : ∀ (n : ℕ) (h : n < cfg0.N) (b : Fin 4) (q : Fin 256) (mm : Fin 1024), mm.val = 256 * (n / 16) + q.val →
    Nearest.Covers (n % 16 + 1) (outsAt0 m c n h (ix2 b q)) (Nearest.pointDist (karr m c) (parr m c) b mm)
  | 0, h, b, q, mm, hmm => by
    have e := outsAt_first m c ⟨0, h⟩ rfl
    rw [show outsAt0 m c 0 h = _ from e, Stretch.update_apply]
    exact Nearest.covers_first _ _ fun n' n hn => stretch_dist m c ⟨0, h⟩ b q mm hmm n' n (by simp only [Nat.zero_mod]; omega)
  | n + 1, h, b, q, mm, hmm => by
    have hN : n + 1 < 64 := lt_of_lt_of_eq h (show cfg0.N = 64 from N_0)
    by_cases h0 : (n + 1) % 16 = 0
    · have e := outsAt_first m c ⟨n + 1, h⟩ h0
      rw [show outsAt0 m c (n + 1) h = _ from e, Stretch.update_apply, h0]
      exact Nearest.covers_first _ _ fun n' n₁ hn => stretch_dist m c ⟨n + 1, h⟩ b q mm hmm n' n₁ (by simp only [h0]; omega)
    · have e := outsAt_later m c ⟨n + 1, h⟩ h0
      rw [show outsAt0 m c (n + 1) h = _ from e, Stretch.update_apply]
      have ih := covers_at c n (Nat.lt_of_succ_lt h) b q mm (by omega)
      have hJ : (n + 1) % 16 = n % 16 + 1 := by omega
      rw [hJ]
      exact Nearest.covers_next (n % 16 + 1) (by omega) _ _ _ ih
        fun n' n₁ hn => stretch_dist m c ⟨n + 1, h⟩ b q mm hmm n' n₁ (by show n₁.val = 2048 * ((n + 1) % 16) + n'.val; omega)

/-- After the last point of a row the buffer holds that block of the nearest-neighbour table. -/
theorem last_eq (c : Dev nD) (t : Fin cfg0.N) (h15 : t.val % 16 = 15) (b : Fin 4) (q : Fin 256) (mm : Fin 1024)
    (hmm : mm.val = 256 * (t.val / 16) + q.val) :
    outsAt0 m c t.val t.isLt (ix2 b q) = Nearest.nearest (karr m c) (parr m c) (ix2 b mm) := by
  have h := covers_at m c t.val t.isLt b q mm hmm
  rw [h15] at h
  exact Nearest.covers_all _ _ h

end Cert.KernelIdeal.Running

end
-- ==== Proof.KernelTable.lean ====
/-
  The kernel's result: the nearest-neighbour table, then its mean.

  The output window's block at point t is rows 0–3, columns 256·(t / 16) … 256·(t / 16) + 255 of the [4, 1024] result
  array, and it is written back only after the last point of each row of the grid (t % 16 = 15), when the staging
  buffer holds that block of the nearest-neighbour table (`flushed_eq`). Column m lies in the block written back at
  point 16·(m / 256) + 15, so the four write-backs cover the array (`cover`) and it ends holding the table
  (`final_table`). The four host operations after the region sum it from 0 and divide by 4096 (`tail_eq`).
-/
import proofs.«170307_j27642409517714_1_alg».proof.Proof.RunningMin
import Idealize.ShloMosaic.Lib.Pipeline.Value
import Idealize.ShloMosaic.Lib.StableHlo.Run
import Idealize.ShloMosaic.Lib.Tactic

noncomputable section

namespace Cert.KernelIdeal.Table

open Cert.KernelIdeal Cert.KernelIdeal.Gen Cert.KernelIdeal.Running Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output's block index over the grid: row block 0, column block the grid's row. -/
theorem idx_o : ∀ t : Fin cfg0.N, win0_2.index t 0 = 0 ∧ win0_2.index t 1 = t.val / 16 :=
  (by decide +kernel : ∀ t : Fin grid0.N, win0_2.index t 0 = 0 ∧ win0_2.index t 1 = t.val / 16)

/-- The nearest-neighbour table of the two argument arrays as the region finds them. -/
abbrev table (c : Dev nD) : S4x1024.Idx → Elt Ideal .f32 := Nearest.nearest (karr m c) (parr m c)

/-- The write-back moves the whole staging buffer: the window is not cut. -/
theorem cut_apply (t : Fin cfg0.N) (X : Vec Ideal S4x256 .f32) (b : Fin 4) (q : Fin 256) :
    (cfg0.win 2).cut (grid0.coords t) X (ix2 b q) = X (ix2 b q) :=
  congrArg X (funext fun a => Fin.ext (by match a with | ⟨0, _⟩ => rfl | ⟨1, _⟩ => rfl))

/-- Entry (b, q) of the output's block at point t is entry (b, 256·(t / 16) + q) of the array. -/
theorem blk_read_apply (t : Fin cfg0.N) (G : S4x1024.Idx → Elt Ideal .f32) (b : Fin 4) (q : Fin 256) (mm : Fin 1024)
    (hmm : mm.val = 256 * (t.val / 16) + q.val) :
    ((cfg0.win 2).blk t).view.read (Elt Ideal) G (ix2 b q) = G (ix2 b mm) := by
  obtain ⟨i0, i1⟩ := idx_o t
  rw [View.read_apply]
  show G _ = G _
  congr 1
  funext a
  apply Fin.ext
  match a with
  | ⟨0, _⟩ => show win0_2.index t 0 * 4 + 1 * b.val = b.val; rw [i0]; omega
  | ⟨1, _⟩ => show win0_2.index t 1 * 256 + 1 * q.val = mm.val; rw [i1, hmm]; omega

/-- What a write-back writes is its block of the table. -/
theorem flushed_eq (c : Dev nD) (t : Fin cfg0.N) (hf : (cfg0.win 2).flush t = true) :
    (dats m 0 c).flushed 2 t = ((cfg0.win 2).blk t).view.read (Elt Ideal) (table m c) := by
  have h15 : t.val % 16 = 15 := (flush0_2 t).mp hf
  have hN : t.val < 64 := lt_of_lt_of_eq t.isLt (show cfg0.N = 64 from N_0)
  show (cfg0.win 2).cut (grid0.coords t) ((dats m 0 c).after 2 t) = _
  rw [after0_2]
  funext y
  obtain ⟨b, q, rfl⟩ : ∃ (b : Fin 4) (q : Fin 256), y = ix2 b q := ⟨y 0, y 1, eq_ix2 y⟩
  have hq := q.isLt
  exact (cut_apply t _ b q).trans
    ((last_eq m c t h15 b q ⟨256 * (t.val / 16) + q.val, by omega⟩ rfl).trans
      (blk_read_apply t (table m c) b q ⟨256 * (t.val / 16) + q.val, by omega⟩ rfl).symm)

/-- An index of the array is in point t's block iff each coordinate is in the block's range on its axis. -/
theorem mem_blk (t : Fin cfg0.N) (i : S4x1024.Idx) :
    i ∈ ((cfg0.win 2).blk t).view.set ↔ ∀ a : Fin 2, win0_2.index t a * S4x256.size a ≤ (i a).val ∧ (i a).val < win0_2.index t a * S4x256.size a + S4x256.size a := by
  show i ∈ ((View.whole main_v0).slice (win0_2.rect t)).set ↔ _
  rw [View.set_slice_whole, Rect.mem_set_unit]
  exact Iff.rfl

/-- Every entry of the array is in the block some row's last point writes back. -/
theorem cover (i : S4x1024.Idx) : ∃ t : Fin cfg0.N, (cfg0.win 2).flush t = true ∧ i ∈ ((cfg0.win 2).blk t).view.set := by
  have h0 : (i 0).val < 4 := (i 0).isLt
  have h1 : (i 1).val < 1024 := (i 1).isLt
  have hN : cfg0.N = 64 := N_0
  obtain ⟨t, ht⟩ : ∃ t : Fin cfg0.N, t.val = 16 * ((i 1).val / 256) + 15 := ⟨⟨16 * ((i 1).val / 256) + 15, by rw [hN]; omega⟩, rfl⟩
  obtain ⟨i0, i1⟩ := idx_o t
  refine ⟨t, (flush0_2 t).mpr (by rw [ht]; omega), ?_⟩
  rw [mem_blk]
  intro a
  match a with
  | ⟨0, _⟩ => show win0_2.index t 0 * 4 ≤ (i 0).val ∧ (i 0).val < win0_2.index t 0 * 4 + 4; rw [i0]; omega
  | ⟨1, _⟩ => show win0_2.index t 1 * 256 ≤ (i 1).val ∧ (i 1).val < win0_2.index t 1 * 256 + 256; rw [i1, ht]; omega

/-- The result array of the region ends holding the table. -/
theorem final_table (c : Dev nD) : (dats m 0 c).arrAt 2 cfg0.N = table m c :=
  (dats m 0 c).arrAt_eq_of_cover 2 (table m c) (flushed_eq m c) cover

/-- The host operations after the region leave the table's mean in the program's result. -/
theorem tail_eq (c : Dev nD) :
    Pipeline.afterTail₀ cfgs (dats m) 0 (V0 m) [hostOps1] c main_v2
      = Nearest.mean (Nearest.nearest (m ((c.tc : Thread nD τ).loc main_arg0)) (m ((c.tc : Thread nD τ).loc main_arg1))) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = table m c := (Pipeline.withArrays_arr spec0 launch0.win.arr_inj c _ _ 2).trans (final_table m c)
  rw [e]
  rfl

/-- The idealized kernel's run, read: its result at the mean of the nearest-neighbour table of its arguments, the
    arguments unchanged. -/
theorem run : θ_run defs (onTc (τ := τ) (main (F := Ideal))) ⟨m, fun _ => 0, ρ⟩ fun r => ∀ c : Dev nD,
      r.2.mem ((c.tc : Thread nD τ).loc main_v2)
        = Nearest.mean (Nearest.nearest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Table

end
-- ==== Proof.RefTable.lean ====
/-
  The reference computes the nearest-neighbour table.

  Read one operation at a time, the reference's distance array at (b, m, n) is `√ max((|k_m|² + |p_n|²) − 2·⟨k_m, p_n⟩, 0)`
  of the two clouds' points: each squared norm a sum over the coordinate axis started from the word 0, which is the
  real 0; the inner product the contraction of the coordinate axis; the two norm arrays laid along rows and columns
  (`dist_apply`). Its reduction by minimum along n, from the word +∞, is the fold of `min` over n of those distances:
  the nearest-neighbour table `Nearest.nearest` (`table_eq`).
-/
import proofs.«170307_j27642409517714_1_alg».proof.Proof.Gen.ReferenceIdeal.Read
import proofs.«170307_j27642409517714_1_alg».proof.Proof.NearestSpec
import proofs.«170307_j27642409517714_1_alg».proof.Proof.LibMinReduce
import Idealize.ShloMosaic.Lib.ValueIdx
import Idealize.ShloMosaic.PureOps.Ideal.Laws

noncomputable section

namespace Cert.ReferenceIdeal.Table

open Cert.ReferenceIdeal Cert.ReferenceIdeal.Gen Cert.ReferenceIdeal.Read Idealize.ShloMosaic Idealize.ShloMosaic.ValueIdx

/-- The reduction along the last axis drops it. -/
theorem red : S4x1024x32768.Reduces [2] S4x1024 := by decide

theorem lift_red (b : Fin 4) (mm : Fin 1024) (n : Fin 32768) : red.lift (ix2 b mm) n = ix3 b mm n :=
  funext fun a => Fin.ext (by match a with | ⟨0, _⟩ => rfl | ⟨1, _⟩ => rfl | ⟨2, _⟩ => rfl)

/-- Entry (b, m, n) of the reference's distance array is the distance from point m of the first cloud to point n
    of the second. -/
theorem dist_apply (x0 : FVec Ideal S4x3x1024 .f32) (x1 : FVec Ideal S4x3x32768 .f32) (b : Fin 4) (mm : Fin 1024) (n : Fin 32768) :
    val_main_v15 (F := Ideal) x0 x1 (ix3 b mm n) = Nearest.pointDist x0 x1 b mm n := by
  have e1 : ∀ k : Fin 3, idx_main_v1 (idx_main_v5 (idx_main_v7 (ix3 b mm n))) k = ix3 b k mm := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b mm n))) k = ix3 b k n := fun k =>
    funext fun a => Fin.ext (by match a with | ⟨0, _⟩ => rfl | ⟨1, _⟩ => rfl | ⟨2, _⟩ => rfl)
  have el : ∀ k : Fin 3, lidx_main_v4 (ix3 b mm n) k = ix3 b k mm := fun k =>
    funext fun a => Fin.ext (by match a with | ⟨0, _⟩ => rfl | ⟨1, _⟩ => rfl | ⟨2, _⟩ => rfl)
  have er : ∀ k : Fin 3, ridx_main_v4 (ix3 b mm n) k = ix3 b k n := fun k =>
    funext fun a => Fin.ext (by match a with | ⟨0, _⟩ => rfl | ⟨1, _⟩ => rfl | ⟨2, _⟩ => rfl)
  unfold Nearest.pointDist Nearest.dist
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_v4_apply, val_main_v13_apply]
  simp only [e1, e3, el, er, val_main_v0_apply, val_main_v2_apply, val_main_cst_apply, val_main_cst_0_apply, val_main_cst_1_apply,
    val_main_cst_2_apply, Ideal.hostUnary_sqrt_def, Ideal.maximumf_def, Ideal.subf_def, Ideal.addf_def, Ideal.mulf_def,
    Ideal.ofBits_def, Ideal.ofBits_zero_f32, zero_add]

/-- The reference's reduced array is the nearest-neighbour table of its two arguments. -/
theorem table_eq (x0 : FVec Ideal S4x3x1024 .f32) (x1 : FVec Ideal S4x3x32768 .f32) :
    val_main_v16 (F := Ideal) x0 x1 = Nearest.nearest x0 x1 := by
  funext i
  obtain ⟨b, mm, rfl⟩ : ∃ (b : Fin 4) (mm : Fin 1024), i = ix2 b mm := ⟨i 0, i 1, eq_ix2 i⟩
  unfold val_main_v16
  refine (LibMinReduce.hostReduce_minimumf_single (val_main_v15 (F := Ideal) x0 x1) (val_main_cst_3 (F := Ideal))
    reducesTo_S4x1024x32768_S4x1024_d2 red h_S_ (ix2 b mm)).trans ?_
  unfold Nearest.nearest
  exact Finset.fold_congr fun n _ => (congrArg (val_main_v15 (F := Ideal) x0 x1) (lift_red b mm n)).trans (dist_apply x0 x1 b mm n)

end Cert.ReferenceIdeal.Table

end
-- ==== Proof.lean ====
/-
  The claim: the kernel's mean nearest-neighbour distance is the reference's, over the extended reals.

  For two clouds of points in three coordinates, k of shape [4, 3, 1024] and p of shape [4, 3, 32768], both programs
  compute the mean over (b, m) of the least distance from point m of k to the points of p, each distance in the
  expanded form √ max((|k_m|² + |p_n|²) − 2·⟨k_m, p_n⟩, 0). The reference takes each minimum over all 32768 points at
  once; the kernel takes it over sixteen stretches of 2048 points, folding each stretch's minimum into a running
  minimum that starts at +∞. A minimum is determined by its lower bounds, so the two agree whatever the order, and no
  finiteness of the inputs is needed: the precondition is never opened.
    * NearestSpec — the distance, the table, the running-minimum characterisation, the mean;
    * StretchValue — one grid point's body at an index: the stored entry is min(old, the stretch's minimum);
    * RunningMin — after point t the staging buffer covers the first t % 16 + 1 stretches (induction on the point);
    * KernelTable — the four write-backs cover the result array with the table; the host tail takes its mean;
    * RefTable — the reference's reduced array is the same table.
  The three frames are the generated ones (the reference's is its generated run with the result dropped); the ideal
  pass rewrote nothing, so `preserves` is trivial.
-/
import proofs.«170307_j27642409517714_1_alg».proof.Defs
import proofs.«170307_j27642409517714_1_alg».proof.Proof.Gen.Kernel
import proofs.«170307_j27642409517714_1_alg».proof.Proof.Gen.Kernel.Frame
import proofs.«170307_j27642409517714_1_alg».proof.Proof.Gen.KernelIdeal
import proofs.«170307_j27642409517714_1_alg».proof.Proof.Gen.KernelIdeal.Frame
import proofs.«170307_j27642409517714_1_alg».proof.Proof.Gen.ReferenceIdeal
import proofs.«170307_j27642409517714_1_alg».proof.Proof.Gen.ReferenceIdeal.Run
import proofs.«170307_j27642409517714_1_alg».proof.Proof.Gen.ReferenceIdeal.Read
import proofs.«170307_j27642409517714_1_alg».proof.Proof.Gen.Pre_finite_inputs
import proofs.«170307_j27642409517714_1_alg».proof.Proof.KernelTable
import proofs.«170307_j27642409517714_1_alg».proof.Proof.RefTable
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the mean of the nearest-neighbour table of arguments that agree. -/
theorem algebraic : Cert.algebraic_KernelIdeal_ReferenceIdeal := by
  intro m ρ m' ρ' _ hagree
  refine ⟨fun c => Cert.Nearest.mean (Cert.Nearest.nearest
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  unfold Cert.ReferenceIdeal.Read.val_main_v18 Cert.ReferenceIdeal.Read.val_main_v17
  rw [Cert.ReferenceIdeal.Table.table_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
